-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S200x10000 : Shape := ⟨2, ![200, 10000]⟩
abbrev S200x128 : Shape := ⟨2, ![200, 128]⟩

abbrev nBuf : Space → Nat
  | .hbm => 9
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x128, .f32⟩
  | .hbm, ⟨7, _⟩ => ⟨S1x128, .f32⟩
  | .hbm, ⟨8, _⟩ => ⟨S10000x128, .f32⟩
  | .local _ .vmem, ⟨0, _⟩ => ⟨S10000x128, .f32⟩
  | .local _ .vmem, ⟨1, _⟩ => ⟨S200x10000, .f32⟩
  | .local _ .vmem, ⟨2, _⟩ => ⟨S200x10000, .f32⟩
  | .local _ .vmem, ⟨3, _⟩ => ⟨S128x128, .f32⟩
  | .local _ .vmem, ⟨4, _⟩ => ⟨S1x128, .f32⟩
  | .local _ .vmem, ⟨5, _⟩ => ⟨S128x128, .f32⟩
  | .local _ .vmem, ⟨6, _⟩ => ⟨S1x128, .f32⟩
  | .local _ .vmem, ⟨7, _⟩ => ⟨S200x128, .f32⟩
  | .local _ .vmem, ⟨8, _⟩ => ⟨S200x128, .f32⟩
  | .local _ .vmem, ⟨9, _⟩ => ⟨S10000x128, .f32⟩
  | .local _ .vmem, ⟨10, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_v0 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![2, 50], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 2 → Nat :=
  let arg1 : BitVec 32 := BitVec.ofNat 32 (i 1).val
  let c200_i32 : BitVec 32 := 200#32
  let v22 : BitVec 32 := Scalar.muli arg1 c200_i32
  let v23 : Index := Scalar.indexCast v22
  let c0_14 : Index := 0#32
  ![v23.toNat, 0]
def k0_cond3 (i : grid0.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S200x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S200x10000_S200x10000_0_0 : ∀ a, (![0, 0] : Fin 2 → Nat) a + S200x10000.size a ≤ S200x10000.size a
  h_S200x10000 : 0 < S200x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  h_S200x128 : 0 < S200x128.numel
  shapeCasts_S200x128_S200x128 : S200x128.ShapeCasts S200x128
  inb_S200x128_S200x128_0_0 : ∀ a, (![0, 0] : Fin 2 → Nat) a + S200x128.size a ≤ S200x128.size a
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  dot_S200x128_S128x128_S200x128_1_0_0_1_n_n_wf : DotDims.WF S200x128 S128x128 S200x128 [1] [0] [0] [1] [] []
  hrank0 : 0 < grid0.rank
  k0_off1_inb : ∀ i : grid0.Coords, ∀ (k0_h2 : k0_cond2 i = 1#1), ∀ a, (k0_off1 i) a + S200x128.size a ≤ S10000x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S200x128.size a ≤ S10000x128.size a
  hwx0_6 : ∀ i : grid0.Coords, EltTy.bits .f32 = 32 ∨ (Rect.block (s := S10000x128) S200x128.size (cc0_transform_6 i) (hinb0_6 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S200x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond3 i == 1#1) | ⟨_ + 7, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S1x128, .f32⟩
  | .hbm, ⟨17, _⟩ => ⟨S10000x128, .f32⟩
  | .hbm, ⟨18, _⟩ => ⟨S10000x128, .f32⟩
  | .hbm, ⟨19, _⟩ => ⟨S10000x128, .f32⟩
  | .hbm, ⟨20, _⟩ => ⟨S10000x128, .f32⟩
  | .hbm, ⟨21, _⟩ => ⟨S_, .f32⟩
  | .hbm, ⟨22, _⟩ => ⟨S10000x128, .f32⟩
  | .hbm, ⟨23, _⟩ => ⟨S10000x128, .f32⟩
  | .hbm, ⟨24, _⟩ => ⟨S_, .f32⟩
  | .hbm, ⟨25, _⟩ => ⟨S10000x128, .f32⟩
  | .hbm, ⟨26, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.KernelIdeal.Conds.lean ====
/-
  The grid of the fused two-layer kernel and what holds at each of its 100 points (2 phases of 50 row stripes,
  point t = 50 * phase + stripe): the body's three branches as conditions on the point, where the output window is
  idle and when its block is written back, and the memory the body is called with.
    * branch 0 (compute the first support x · W1 into the first scratch) runs at point 0 only;
    * branch 1 (one 200-row stripe of the second support into the second scratch) runs at the points below 50;
    * branch 2 (one 200-row stripe of the result into the output block) runs at the points from 50 on.
  The output's block index is 0 throughout the first phase and the stripe's number in the second, so the block is
  written back only at the points from 50 on, and below 50 the window is idle: its buffer is returned as found.
-/
import proofs.«147118_g42614665511374_cont_8to1_b_1813_8_alg».proof.Proof.Gen.KernelIdeal.Frame
import proofs.«147118_g42614665511374_cont_8to1_b_1813_8_alg».proof.Proof.Gen.KernelIdeal.Skeleton

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-! ## The three branches, as conditions on the grid point -/

/-- Branch 0's condition as the body computes it: both grid coordinates are zero. -/
abbrev cond0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- Branch 1's condition: the phase is 0. -/
abbrev cond1 (i : grid0.Coords) : Prop := k0_cond2 i = 1#1
/-- Branch 2's condition: the phase is 1. -/
abbrev cond2 (i : grid0.Coords) : Prop := k0_cond3 i = 1#1

theorem cond0_iff : ∀ t : Fin cfg0.N, cond0 (grid0.coords t) ↔ t.val = 0 :=
  (by decide +kernel : ∀ t : Fin grid0.N, cond0 (grid0.coords t) ↔ t.val = 0)
theorem cond1_iff : ∀ t : Fin cfg0.N, cond1 (grid0.coords t) ↔ t.val < 50 :=
  (by decide +kernel : ∀ t : Fin grid0.N, cond1 (grid0.coords t) ↔ t.val < 50)
theorem cond2_iff : ∀ t : Fin cfg0.N, cond2 (grid0.coords t) ↔ 50 ≤ t.val :=
  (by decide +kernel : ∀ t : Fin grid0.N, cond2 (grid0.coords t) ↔ 50 ≤ t.val)

/-- The stripe a first-phase point stores: rows 200 * t to 200 * t + 199 of the second scratch, all 128 columns. -/
theorem off1_eq : ∀ t : Fin cfg0.N, t.val < 50 → k0_off1 (grid0.coords t) = ![200 * t.val, 0] :=
  (by decide +kernel : ∀ t : Fin grid0.N, t.val < 50 → k0_off1 (grid0.coords t) = ![200 * t.val, 0])

/-! ## Idle points and write-backs -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- The output window is idle exactly in the first phase, -/
theorem idle6_iff : ∀ t : Fin cfg0.N, cfg0.idle 6 (grid0.coords t) = true ↔ t.val < 50 :=
  (by decide +kernel : ∀ t : Fin grid0.N, cfg0.idle 6 (grid0.coords t) = true ↔ t.val < 50)
/-- and its block is written back exactly at the points of the second phase. -/
theorem flush6_iff : ∀ t : Fin cfg0.N, (cfg0.win 6).flush t = true ↔ 50 ≤ t.val :=
  (by decide +kernel : ∀ t : Fin grid0.N, win0_6.flush t = true ↔ 50 ≤ t.val)
/-- The block written back at point 50 + s is block s of the result: rows 200 * s to 200 * s + 199. -/
theorem index6_eq : ∀ t : Fin cfg0.N, 50 ≤ t.val → (cfg0.win 6).index t = ![t.val - 50, 0] :=
  (by decide +kernel : ∀ t : Fin grid0.N, 50 ≤ t.val → win0_6.index t = ![t.val - 50, 0])
/-- The adjacency stripe a point is handed: stripe t mod 50. -/
theorem index1_eq : ∀ t : Fin cfg0.N, (cfg0.win 1).index t = ![t.val % 50, 0] :=
  (by decide +kernel : ∀ t : Fin grid0.N, win0_1.index t = ![t.val % 50, 0])

/-! ## The memory the body is called with -/

/-- Each window's current staging memref at point `t`, and that it is a whole buffer. -/
abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S200x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S200x128 .f32 := win0_6.stage (cfg0.slots t 6)
abbrev hs6 (t : Fin cfg0.N) : (ms6 t).IsWhole := hstage0_6 ((cfg0.slots t 6).cast nbuf0_6)
/-- The two scratch operands, whole buffers of the kernel's own: the first holds the first support, the second
    the second support. -/
abbrev sc0 : Memref sig .tc .vmem S10000x128 .f32 := Memref.whole cc0_scratch0
abbrev sc1 : Memref sig .tc .vmem S10000x128 .f32 := Memref.whole cc0_scratch1

/-- What the region hands the body besides the windows: the two scratch buffers at some contents each, and the
    generator register at some state. -/
theorem PhiA_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

end Cert.KernelIdeal.Hand

end
-- ==== Proof.KernelIdeal.RunA.lean ====
/-
  The body at the first grid point (branches 0 and 1 run): with the six inputs' buffers at their blocks, the first
  scratch at anything and the second scratch at any contents xs1, the body stores the first support x0 · x2 over the
  whole first scratch, reads it back, and stores relu (x1 · (x0 · x2) + x3) · x4 into rows 200 * i₁ … 200 * i₁ + 199
  of the second scratch. The inputs and the output's buffer are returned as found; each scratch is returned with the
  pieces the run finds written over what it held.
-/
import proofs.«147118_g42614665511374_cont_8to1_b_1813_8_alg».proof.Proof.KernelIdeal.Conds
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S10000x128 .f32) (harg2 : arg2.IsWhole) (arg3 : Memref sig .tc .vmem S200x10000 .f32) (harg3 : arg3.IsWhole)
  (arg4 : Memref sig .tc .vmem S128x128 .f32) (harg4 : arg4.IsWhole) (arg5 : Memref sig .tc .vmem S1x128 .f32) (harg5 : arg5.IsWhole)
  (arg6 : Memref sig .tc .vmem S128x128 .f32) (harg6 : arg6.IsWhole) (arg7 : Memref sig .tc .vmem S1x128 .f32) (harg7 : arg7.IsWhole)
  (arg8 : Memref sig .tc .vmem S200x128 .f32) (harg8 : arg8.IsWhole) (arg9 : Memref sig .tc .vmem S10000x128 .f32) (harg9 : arg9.IsWhole)
  (arg10 : Memref sig .tc .vmem S10000x128 .f32) (harg10 : arg10.IsWhole)

variable (hc0 : cond0 i) (hc1 : cond1 i) (hc2 : ¬cond2 i)
  (x0 : Vec F S10000x128 .f32) (x1 : Vec F S200x10000 .f32) (x2 : Vec F S128x128 .f32) (x3 : Vec F S1x128 .f32) (x4 : Vec F S128x128 .f32) (x5 : Vec F S1x128 .f32)
  (x6 : Vec F S200x128 .f32) (xs1 : Vec F S10000x128 .f32)

set_option maxHeartbeats 1000000 in
/-- The pieces the body writes into the two scratch buffers at the first point, with the run that writes them. -/
noncomputable def runA :
    { LS : List (View.Piece (Elt F) S10000x128 .f32) × List (View.Piece (Elt F) S10000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f LS.1) ∗ (arg10.view.loc (c : Thread nD τ) ↦[arg10.view.set]{fullShare} arg10.view.writes (Elt F) (harg10.unread xs1) LS.2)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10) K } := by
  refine ⟨⟨?_, ?_⟩, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hf6; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]
    · iexists _; iexact HS0
    iexact HS1

/-- The offsets of the whole-block loads and stores are zeros. -/
theorem zero_offsetsA : (![0, 0] : Fin 2 → Nat) = fun _ => 0 := funext fun a => by fin_cases a <;> rfl

/-- What that run writes into the first scratch: ONE piece, the whole buffer, with the matrix product x0 · x2. -/
theorem runA_pieces0 :
    (runA c i arg2 harg2 arg3 harg3 arg4 harg4 arg5 harg5 arg6 harg6 arg7 harg7 arg8 harg8 arg9 harg9 arg10 harg10 hc0 hc1 hc2 x0 x1 x2 x3 x4 x5 x6 xs1).1.1
      = [(⟨Rect.unit (s := S10000x128) ![0, 0] S10000x128.size inb_S10000x128_S10000x128_0_0, k0_pay1 x0 x2⟩ : View.Piece (Elt F) S10000x128 .f32)] := by
  unfold runA
  dsimp only
  sl_unfold_words
  simp only [View.readAt_eq_ld, harg2.read_unread, harg4.read_unread,
    View.ld_unit_zero (S := S10000x128) zero_offsetsA, View.ld_unit_zero (S := S128x128) zero_offsetsA]

/-- and into the second: ONE piece, the stripe's rectangle, with relu (x1 · (x0 · x2) + x3) · x4 — the first support
    read back from the first scratch is what was just stored there. -/
theorem runA_pieces1 :
    (runA c i arg2 harg2 arg3 harg3 arg4 harg4 arg5 harg5 arg6 harg6 arg7 harg7 arg8 harg8 arg9 harg9 arg10 harg10 hc0 hc1 hc2 x0 x1 x2 x3 x4 x5 x6 xs1).1.2
      = [(⟨Rect.unit (s := S10000x128) (k0_off1 i) S200x128.size (k0_off1_inb i hc1), k0_pay2 x1 (k0_pay1 x0 x2) x3 x4⟩ : View.Piece (Elt F) S10000x128 .f32)] := by
  unfold runA
  dsimp only
  sl_unfold_words
  simp only [View.readAt_eq_ld, harg2.read_unread, harg3.read_unread, harg4.read_unread, harg5.read_unread, harg6.read_unread,
    View.readCov_unit_zero (S := S10000x128) _ zero_offsetsA,
    View.ld_unit_zero (S := S200x10000) zero_offsetsA, View.ld_unit_zero (S := S10000x128) zero_offsetsA,
    View.ld_unit_zero (S := S1x128) zero_offsetsA, View.ld_unit_zero (S := S128x128) zero_offsetsA]

end Cert.KernelIdeal.Hand

end
-- ==== Proof.KernelIdeal.RunB.lean ====
/-
  The body at a point of the first phase other than the first (branch 1 alone runs): with the six inputs' buffers at
  their blocks, the first scratch at the first support s1 and the second scratch at any contents xs1, the body loads the
  adjacency stripe, s1, the first bias and the second weights, and stores relu (stripe · s1 + b1) · W2 into rows
  200 * i₁ … 200 * i₁ + 199 of the second scratch. Everything else is returned as it was found; the second scratch is
  returned at xs1 with that one rectangle overwritten (the list of written pieces is what the run finds).
-/
import proofs.«147118_g42614665511374_cont_8to1_b_1813_8_alg».proof.Proof.KernelIdeal.Conds
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S10000x128 .f32) (harg2 : arg2.IsWhole) (arg3 : Memref sig .tc .vmem S200x10000 .f32) (harg3 : arg3.IsWhole)
  (arg4 : Memref sig .tc .vmem S128x128 .f32) (harg4 : arg4.IsWhole) (arg5 : Memref sig .tc .vmem S1x128 .f32) (harg5 : arg5.IsWhole)
  (arg6 : Memref sig .tc .vmem S128x128 .f32) (harg6 : arg6.IsWhole) (arg7 : Memref sig .tc .vmem S1x128 .f32) (harg7 : arg7.IsWhole)
  (arg8 : Memref sig .tc .vmem S200x128 .f32) (harg8 : arg8.IsWhole) (arg9 : Memref sig .tc .vmem S10000x128 .f32) (harg9 : arg9.IsWhole)
  (arg10 : Memref sig .tc .vmem S10000x128 .f32) (harg10 : arg10.IsWhole)

variable (hc0 : ¬cond0 i) (hc1 : cond1 i) (hc2 : ¬cond2 i)
  (x0 : Vec F S10000x128 .f32) (x1 : Vec F S200x10000 .f32) (x2 : Vec F S128x128 .f32) (x3 : Vec F S1x128 .f32) (x4 : Vec F S128x128 .f32) (x5 : Vec F S1x128 .f32)
  (x6 : Vec F S200x128 .f32) (xs0 xs1 : Vec F S10000x128 .f32)

set_option maxHeartbeats 1000000 in
/-- The pieces the body writes into the second scratch at such a point, with the run that writes them. -/
noncomputable def runB :
    { LS1 : List (View.Piece (Elt F) S10000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xs0 ∗ (arg10.view.loc (c : Thread nD τ) ↦[arg10.view.set]{fullShare} arg10.view.writes (Elt F) (harg10.unread xs1) LS1)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10) K } := by
  refine ⟨?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hf6; obtain rfl := harg9.eq_unread hfs0; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]
    · iexists _; isplitr; · ipureintro; exact harg9.read_unread _
      iexact HS0
    iexact HS1

/-- The offsets of the whole-block loads are zeros. -/
theorem zero_offsetsB : (![0, 0] : Fin 2 → Nat) = fun _ => 0 := funext fun a => by fin_cases a <;> rfl

/-- What that run writes: ONE piece, the stripe's rectangle (200 rows from row 200 * i₁, all columns) with the
    payload relu (x1 · xs0 + x3) · x4 of the loaded blocks — each load of a whole buffer reads its contents. -/
theorem runB_pieces :
    (runB c i arg2 harg2 arg3 harg3 arg4 harg4 arg5 harg5 arg6 harg6 arg7 harg7 arg8 harg8 arg9 harg9 arg10 harg10 hc0 hc1 hc2 x0 x1 x2 x3 x4 x5 x6 xs0 xs1).1
      = [(⟨Rect.unit (s := S10000x128) (k0_off1 i) S200x128.size (k0_off1_inb i hc1), k0_pay2 x1 xs0 x3 x4⟩ : View.Piece (Elt F) S10000x128 .f32)] := by
  unfold runB
  dsimp only
  sl_unfold_words
  simp only [View.readAt_eq_ld, harg3.read_unread, harg9.read_unread, harg5.read_unread, harg6.read_unread,
    View.ld_unit_zero (S := S200x10000) zero_offsetsB, View.ld_unit_zero (S := S10000x128) zero_offsetsB,
    View.ld_unit_zero (S := S1x128) zero_offsetsB, View.ld_unit_zero (S := S128x128) zero_offsetsB]

end Cert.KernelIdeal.Hand

end
-- ==== Proof.KernelIdeal.RunC.lean ====
/-
  The body at a point of the second phase (branch 2 alone runs): with the six inputs' buffers at their blocks, the
  output's buffer at anything, the first scratch at xs0 and the second scratch at the second support xs1, the body
  loads the adjacency stripe, the whole second scratch and the second bias, and stores logistic (x1 · xs1 + x5) over
  the whole output buffer. Everything else is returned as it was found.
-/
import proofs.«147118_g42614665511374_cont_8to1_b_1813_8_alg».proof.Proof.KernelIdeal.Conds
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S10000x128 .f32) (harg2 : arg2.IsWhole) (arg3 : Memref sig .tc .vmem S200x10000 .f32) (harg3 : arg3.IsWhole)
  (arg4 : Memref sig .tc .vmem S128x128 .f32) (harg4 : arg4.IsWhole) (arg5 : Memref sig .tc .vmem S1x128 .f32) (harg5 : arg5.IsWhole)
  (arg6 : Memref sig .tc .vmem S128x128 .f32) (harg6 : arg6.IsWhole) (arg7 : Memref sig .tc .vmem S1x128 .f32) (harg7 : arg7.IsWhole)
  (arg8 : Memref sig .tc .vmem S200x128 .f32) (harg8 : arg8.IsWhole) (arg9 : Memref sig .tc .vmem S10000x128 .f32) (harg9 : arg9.IsWhole)
  (arg10 : Memref sig .tc .vmem S10000x128 .f32) (harg10 : arg10.IsWhole)

variable (hc0 : ¬cond0 i) (hc1 : ¬cond1 i) (hc2 : cond2 i)
  (x0 : Vec F S10000x128 .f32) (x1 : Vec F S200x10000 .f32) (x2 : Vec F S128x128 .f32) (x3 : Vec F S1x128 .f32) (x4 : Vec F S128x128 .f32) (x5 : Vec F S1x128 .f32)
  (xs0 xs1 : Vec F S10000x128 .f32)

set_option maxHeartbeats 1000000 in
/-- The pieces the body writes into the output's buffer at such a point, with the run that writes them. -/
noncomputable def runC :
    { LS6 : List (View.Piece (Elt F) S200x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f LS6) ∗ owns (c : Thread nD τ) arg9 fullShare xs0 ∗ owns (c : Thread nD τ) arg10 fullShare xs1) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10) K } := by
  refine ⟨?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg9.eq_unread hfs0; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; iexact H6
    isplitl [HS0]
    · iexists _; isplitr; · ipureintro; exact harg9.read_unread _
      iexact HS0
    iexists _; isplitr; · ipureintro; exact harg10.read_unread _
    iexact HS1

/-- The offsets of the whole-block loads and stores are zeros. -/
theorem zero_offsetsC : (![0, 0] : Fin 2 → Nat) = fun _ => 0 := funext fun a => by fin_cases a <;> rfl

/-- What that run writes: ONE piece, the whole output buffer, with logistic (x1 · xs1 + x5). -/
theorem runC_pieces :
    (runC c i arg2 harg2 arg3 harg3 arg4 harg4 arg5 harg5 arg6 harg6 arg7 harg7 arg8 harg8 arg9 harg9 arg10 harg10 hc0 hc1 hc2 x0 x1 x2 x3 x4 x5 xs0 xs1).1
      = [(⟨Rect.unit (s := S200x128) ![0, 0] S200x128.size inb_S200x128_S200x128_0_0, k0_pay3 x1 xs1 x5⟩ : View.Piece (Elt F) S200x128 .f32)] := by
  unfold runC
  dsimp only
  sl_unfold_words
  simp only [View.readAt_eq_ld, harg3.read_unread, harg10.read_unread, harg7.read_unread,
    View.ld_unit_zero (S := S200x10000) zero_offsetsC, View.ld_unit_zero (S := S10000x128) zero_offsetsC,
    View.ld_unit_zero (S := S1x128) zero_offsetsC]

end Cert.KernelIdeal.Hand

end
-- ==== Proof.KernelIdeal.Data.lean ====
/-
  What the fused kernel holds, point by point, as functions of the input blocks it is handed:
    * S1, the first support x · W1, stored over the whole first scratch at point 0 and kept there to the end;
    * for each first-phase point t, the stripe relu (adj-stripe t · S1 + b1) · W2: 200 rows of the second support;
    * S2, the second support, the fifty stripes one under the other: row r is row r mod 200 of stripe r / 200;
    * for each second-phase point t, the output block logistic (adj-stripe t · S2 + b2).
  Between points the body's own memory satisfies: before point 0 nothing is known of the two scratch buffers; after
  point n the first scratch holds S1 and the second holds SOME contents that agree with S2 on all rows below
  200 * (n + 1) — the stripes stored so far. After point 49 that is every row, so the second phase reads S2 itself.
  The output window is idle in the first phase (its buffer is returned as found) and holds the output block after
  each point of the second, where it is written back.
-/
import proofs.«147118_g42614665511374_cont_8to1_b_1813_8_alg».proof.Proof.KernelIdeal.Conds
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem N_eq : cfg0.N = 100 := N_0

/-- The first grid point. -/
abbrev t0 : Fin cfg0.N := ⟨0, by rw [N_eq]; omega⟩

/-- The first support, as point 0 computes it from the blocks of x and W1. -/
def S1 (c : Dev nD) : Vec F S10000x128 .f32 := k0_pay1 (iblk m c 0 t0) (iblk m c 2 t0)

/-- The stripe of the second support a first-phase point computes from its adjacency stripe, S1, b1 and W2. -/
def stripe (c : Dev nD) (t : Fin cfg0.N) : FVec F S200x128 .f32 :=
  k0_pay2 (iblk m c 1 t) (S1 m c) (iblk m c 3 t) (iblk m c 4 t)

/-- The second support: row r, column l is row r mod 200, column l of stripe r / 200. -/
def S2 (c : Dev nD) : Vec F S10000x128 .f32 := fun idx =>
  stripe m c ⟨(idx 0).val / 200, by have := idx2_lt0 idx; rw [N_eq]; omega⟩
    (ix2 (⟨(idx 0).val % 200, Nat.mod_lt _ (by norm_num)⟩ : Fin 200) (⟨(idx 1).val, idx2_lt1 idx⟩ : Fin 128))

/-- The output block a second-phase point computes from its adjacency stripe, S2 and b2. -/
def outBlk (c : Dev nD) (t : Fin cfg0.N) : FVec F S200x128 .f32 :=
  k0_pay3 (iblk m c 1 t) (S2 m c) (iblk m c 5 t)

/-- Contents of the second scratch that agree with the second support on every row below `bound`. -/
def Filled (c : Dev nD) (bound : ℕ) (d : Vec F S10000x128 .f32) : Prop :=
  ∀ idx : S10000x128.Idx, (idx 0).val < bound → d idx = S2 m c idx

/-- Contents that agree with S2 on all 10000 rows are S2. -/
theorem Filled.eq_S2 {c : Dev nD} {bound : ℕ} {d : Vec F S10000x128 .f32} (h : Filled m c bound d) (hb : 10000 ≤ bound) :
    d = S2 m c :=
  funext fun idx => h idx (lt_of_lt_of_le (idx2_lt0 idx) hb)

theorem Filled.mono {c : Dev nD} {b b' : ℕ} {d : Vec F S10000x128 .f32} (h : Filled m c b d) (hb : b' ≤ b) : Filled m c b' d :=
  fun idx hi => h idx (lt_of_lt_of_le hi hb)

/-- The body's own memory between points: before point 0 the two scratch buffers at anything; after point n the
    first at S1 and the second at contents filled below row 200 * (n + 1); the generator register at some state. -/
def Phi (c : Dev nD) : ℕ → sProp 𝕄
  | 0 => Pipeline.ΦA spec0 c
  | n + 1 => iprop(iprop(owns (c : Thread nD τ) sc0 fullShare (S1 m c) ∗ (∃ d, ⌜Filled m c (200 * (n + 1)) d⌝ ∗ owns (c : Thread nD τ) sc1 fullShare d)) ∗ (∃ r, prngReg c r))

theorem Phi_zero (c : Dev nD) : Phi m c 0 = Pipeline.ΦA spec0 c := rfl
theorem Phi_succ (c : Dev nD) (n : ℕ) :
    Phi m c (n + 1) = iprop(iprop(owns (c : Thread nD τ) sc0 fullShare (S1 m c) ∗ (∃ d, ⌜Filled m c (200 * (n + 1)) d⌝ ∗ owns (c : Thread nD τ) sc1 fullShare d)) ∗ (∃ r, prngReg c r)) := rfl
theorem Phi_pos (c : Dev nD) (n : ℕ) (hn : n ≠ 0) :
    Phi m c n = iprop(iprop(owns (c : Thread nD τ) sc0 fullShare (S1 m c) ∗ (∃ d, ⌜Filled m c (200 * n) d⌝ ∗ owns (c : Thread nD τ) sc1 fullShare d)) ∗ (∃ r, prngReg c r)) := by
  cases n with
  | zero => exact absurd rfl hn
  | succ n => rfl

/-- The proof data of the one pipeline on core c: the arrays as the region finds them; after the body each input's
    buffer at its block and the output's at the output block (consulted only where the window is not idle); the
    memory above between points; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk m c t
  Φ t := Phi m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outBlk m c t := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

end Cert.KernelIdeal.Hand

end
-- ==== Proof.KernelIdeal.Fill.lean ====
/-
  One stripe of the second support stored over contents that are right below it leaves contents right one stripe
  further: the arithmetic of rows. Point t (below 50) stores through the rectangle of rows 200 * t … 200 * t + 199
  and all 128 columns; row 200 * t + y of the second support is row y of stripe t because
  (200 * t + y) / 200 = t and (200 * t + y) mod 200 = y for y below 200.
-/
import proofs.«147118_g42614665511374_cont_8to1_b_1813_8_alg».proof.Proof.KernelIdeal.Data

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable {F : FTy → Type} [FloatOps F]

variable (m : (ℓ : Loc nD τ sig) → Buf (Elt F) ℓ)

/-- Row 200 * t + y₀ of the second support, at column y₁, is the entry (y₀, y₁) of stripe t: the row's quotient by 200
    is t and its remainder is y₀, since y₀ is below 200. -/
theorem S2_of_row (c : Dev nD) (t : Fin cfg0.N) (y : S200x128.Idx) (idx : S10000x128.Idx)
    (h0 : (idx 0).val = 200 * t.val + (y 0).val) (h1 : (idx 1).val = (y 1).val) :
    S2 m c idx = stripe m c t y := by
  have hy0 : (y 0).val < 200 := (y 0).isLt
  unfold S2
  refine congrArg₂ (stripe m c) (Fin.ext ?_) (funext fun a => Fin.ext ?_)
  · show (idx 0).val / 200 = t.val
    omega
  · match a with
    | ⟨0, _⟩ =>
      show (idx 0).val % 200 = (y 0).val
      omega
    | ⟨1, _⟩ => exact h1

/-- Storing point t's stripe (t below 50) through its rectangle — rows 200 * t to 200 * t + 199, every column — over
    contents that agree with S2 below row 200 * t gives contents that agree with it below row 200 * (t + 1): an
    entry of the rectangle now holds the stripe's entry, which is S2's by the division of its row by 200, and an
    entry outside it below row 200 * (t + 1) lies below row 200 * t and keeps what it held. Stated through any
    whole buffer of the scratch's shape. -/
theorem Filled.store (c : Dev nD) (t : Fin cfg0.N) (ht : t.val < 50)
    (M : Memref sig .tc .vmem S10000x128 .f32) (hM : M.IsWhole) (d : Vec F S10000x128 .f32) (hd : Filled m c (200 * t.val) d)
    (inb : ∀ a, k0_off1 (grid0.coords t) a + S200x128.size a ≤ S10000x128.size a) :
    Filled m c (200 * (t.val + 1))
      (M.view.read (Elt F) (M.view.writes (Elt F) (hM.unread d)
        [(⟨Rect.unit (s := S10000x128) (k0_off1 (grid0.coords t)) S200x128.size inb, stripe m c t⟩ : View.Piece (Elt F) S10000x128 .f32)])) := by
  intro idx hidx
  have ho0 : k0_off1 (grid0.coords t) 0 = 200 * t.val := congrFun (off1_eq t ht) 0
  have ho1 : k0_off1 (grid0.coords t) 1 = 0 := congrFun (off1_eq t ht) 1
  by_cases hmem : idx ∈ (Rect.unit (s := S10000x128) (k0_off1 (grid0.coords t)) S200x128.size inb).set
  · -- an entry of the rectangle: it now holds the stripe's entry, which is the second support's
    obtain ⟨y, rfl⟩ := LoadRect.exists_idx_of_mem _ hmem
    refine (View.read_writes_cons_emb M.view (hM.unread d)
      (Rect.unit (s := S10000x128) (k0_off1 (grid0.coords t)) S200x128.size inb) (stripe m c t) [] y).trans ?_
    refine (S2_of_row m c t y _ ?_ ?_).symm
    · show k0_off1 (grid0.coords t) 0 + 1 * (y 0).val = 200 * t.val + (y 0).val
      rw [ho0, Nat.one_mul]
    · show k0_off1 (grid0.coords t) 1 + 1 * (y 1).val = (y 1).val
      rw [ho1, Nat.one_mul, Nat.zero_add]
  · -- an entry outside the rectangle keeps what it held, and it lies below row 200 * t
    rw [View.read_writes_apply_of_forall_not_mem M.view (hM.unread d) idx _
      (by intro p hp; rw [List.mem_singleton] at hp; subst hp; exact hmem), hM.read_unread]
    apply hd
    have h := (not_congr Rect.mem_set_unit).mp hmem
    rw [Fin.forall_fin_two] at h
    have h1 : (idx 1).val < 128 := idx2_lt1 idx
    have hs0 : S200x128.size 0 = 200 := rfl
    have hs1 : S200x128.size 1 = 128 := rfl
    rw [ho0, ho1, hs0, hs1] at h
    omega

end Cert.KernelIdeal.Hand

end
-- ==== Proof.KernelIdeal.Body.lean ====
/-
  The body obligation of the fused kernel and its frame run. At every grid point the body, called on the current
  staging buffers and the two scratch buffers, takes the memory described before the point to the memory described
  after it (the proof data of the neighbouring module):
    * at point 0 it fills the first scratch with the first support S1 and the first stripe of the second scratch;
    * at a point 0 < t < 50 it finds S1, and stores stripe t over contents right below row 200 * t, which leaves
      contents right below row 200 * (t + 1);
    * at a point t ≥ 50 the second scratch is right on all rows, so it is the second support S2 itself, and the body
      stores the output block over the whole output buffer;
  the inputs' buffers are returned at their blocks, and in the first phase the idle output buffer as it was found.
  The pipeline rule with a tracked invariant then runs @main: every weakly fair execution terminates, nothing
  faults, each argument array ends as launched, and the result array holds the write-backs of the second phase.
-/
import proofs.«147118_g42614665511374_cont_8to1_b_1813_8_alg».proof.Proof.KernelIdeal.RunA
import proofs.«147118_g42614665511374_cont_8to1_b_1813_8_alg».proof.Proof.KernelIdeal.RunB
import proofs.«147118_g42614665511374_cont_8to1_b_1813_8_alg».proof.Proof.KernelIdeal.RunC
import proofs.«147118_g42614665511374_cont_8to1_b_1813_8_alg».proof.Proof.KernelIdeal.Fill

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem Phi_before (c : Dev nD) (t : Fin cfg0.N) : (dats m 0 c).Φ t.castSucc = Phi m c t.val := by
  dsimp only [dats]; simp only [Fin.coe_castSucc]
theorem Phi_after (c : Dev nD) (t : Fin cfg0.N) : (dats m 0 c).Φ t.succ = Phi m c (t.val + 1) := by
  dsimp only [dats]; simp only [Fin.val_succ]

/-- One store through the whole buffer leaves its payload, whatever the buffer held. -/
theorem read_whole_store {S : Shape} (M : Memref sig .tc .vmem S .f32) (f : M.view.ty.Contents (Elt F))
    {off : Fin S.rank → Nat} (hoff : off = fun _ => 0) (inb : ∀ a, off a + S.size a ≤ S.size a) (w : S.Idx → Elt F .f32) :
    M.view.read (Elt F) (M.view.writes (Elt F) f [(⟨Rect.unit off S.size inb, w⟩ : View.Piece (Elt F) S .f32)]) = w := by
  rw [View.read_writes_eq_canon _ _ _ (fun y => ⟨_, List.mem_singleton_self _, View.mem_set_unit_zero hoff inb y⟩),
    View.canon_unit_zero hoff inb w]

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 9600000 in
/-- The body at any point: the three cases by the point's number. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [Phi_before, Phi_after, Phi_succ]
  have hN : t.val < 100 := lt_of_lt_of_eq t.isLt N_eq
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  by_cases h50 : t.val < 50
  · -- first phase: the output window is idle and not written back
    have hfl : (cfg0.win 6).flush t = false := Bool.eq_false_iff.mpr fun h => absurd ((flush6_iff t).mp h) (by omega)
    rw [(dats m 0 c).leavesExact_idle 6 t ((idle6_iff t).mpr h50) hfl]
    have hc1 : cond1 (grid0.coords t) := (cond1_iff t).mpr h50
    have hc2 : ¬cond2 (grid0.coords t) := fun h => absurd ((cond2_iff t).mp h) (by omega)
    by_cases hz : t.val = 0
    · -- point 0
      have hc0 : cond0 (grid0.coords t) := (cond0_iff t).mpr hz
      obtain rfl : t = t0 := Fin.ext hz
      rw [show Phi m c (t0 : Fin cfg0.N).val = Pipeline.ΦA spec0 c from rfl, PhiA_eq]
      iintro ⟨⟨⟨HS0, ⟨%d1, HS1⟩⟩, Hg⟩, Ho, ⟨%d0, H0⟩, ⟨%e1, H1⟩, ⟨%d2, H2⟩, ⟨%d3, H3⟩, ⟨%d4, H4⟩, ⟨%d5, H5⟩, ⟨%d6, H6⟩⟩
      iapply ((runA c (grid0.coords t0) (ms0 t0) (hs0 t0) (ms1 t0) (hs1 t0) (ms2 t0) (hs2 t0) (ms3 t0) (hs3 t0) (ms4 t0) (hs4 t0) (ms5 t0) (hs5 t0) (ms6 t0) (hs6 t0) sc0 (Memref.isWhole_whole _) sc1 (Memref.isWhole_whole _) hc0 hc1 hc2 (iblk m c 0 t0) (iblk m c 1 t0) (iblk m c 2 t0) (iblk m c 3 t0) (iblk m c 4 t0) (iblk m c 5 t0) ((dats m 0 c).before 6 t0 d6) d1).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%f9, HS0⟩, HS1⟩
      isplitl [HS0 HS1 Hg]
      · isplitl [HS0 HS1]
        · isplitl [HS0]
          · unfold owns; iexists _; isplitr
            swap; · iexact HS0
            ipureintro
            rw [runA_pieces0]
            exact read_whole_store sc0 _ zero_offsetsA _ _
          iexists _; isplitr
          swap
          · unfold owns; iexists _; isplitr
            swap; · iexact HS1
            ipureintro; rfl
          ipureintro
          rw [runA_pieces1]
          exact Filled.store m c t0 h50 sc1 _ d1 (fun idx hi => absurd hi (by omega)) _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · -- a later point of the first phase
      have hc0 : ¬cond0 (grid0.coords t) := fun h => hz ((cond0_iff t).mp h)
      rw [Phi_pos m c _ hz]
      iintro ⟨⟨⟨HS0, ⟨%d1, %hd1, HS1⟩⟩, Hg⟩, Ho, ⟨%d0, H0⟩, ⟨%e1, H1⟩, ⟨%d2, H2⟩, ⟨%d3, H3⟩, ⟨%d4, H4⟩, ⟨%d5, H5⟩, ⟨%d6, H6⟩⟩
      iapply ((runB c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) hc0 hc1 hc2 (iblk m c 0 t) (iblk m c 1 t) (iblk m c 2 t) (iblk m c 3 t) (iblk m c 4 t) (iblk m c 5 t) ((dats m 0 c).before 6 t d6) (S1 m c) d1).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]; · iexact HS0
          iexists _; isplitr
          swap
          · unfold owns; iexists _; isplitr
            swap; · iexact HS1
            ipureintro; rfl
          ipureintro
          rw [runB_pieces]
          exact Filled.store m c t h50 sc1 _ d1 hd1 _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · -- second phase: the second scratch is the second support, the output block is stored whole
    have h50' : 50 ≤ t.val := Nat.le_of_not_lt h50
    have hid : cfg0.idle 6 (grid0.coords t) = false := Bool.eq_false_iff.mpr fun h => h50 ((idle6_iff t).mp h)
    rw [show (dats m 0 c).leavesExact 6 t = owns (c : Thread nD τ) (ms6 t) fullShare ((dats m 0 c).after 6 t) from by
      unfold Dat.leavesExact; rw [hid], after6]
    have hc0 : ¬cond0 (grid0.coords t) := fun h => absurd ((cond0_iff t).mp h) (by omega)
    have hc1 : ¬cond1 (grid0.coords t) := fun h => h50 ((cond1_iff t).mp h)
    have hc2 : cond2 (grid0.coords t) := (cond2_iff t).mpr h50'
    rw [Phi_pos m c _ (by omega)]
    iintro ⟨⟨⟨HS0, ⟨%d1, %hd1, HS1⟩⟩, Hg⟩, Ho, ⟨%d0, H0⟩, ⟨%e1, H1⟩, ⟨%d2, H2⟩, ⟨%d3, H3⟩, ⟨%d4, H4⟩, ⟨%d5, H5⟩, ⟨%d6, H6⟩⟩
    obtain rfl := hd1.eq_S2 m (by omega)
    iapply ((runC c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) hc0 hc1 hc2 (iblk m c 0 t) (iblk m c 1 t) (iblk m c 2 t) (iblk m c 3 t) (iblk m c 4 t) (iblk m c 5 t) (S1 m c) (S2 m c)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, ⟨%f8, H6⟩, HS0, HS1⟩
    isplitl [HS0 HS1 Hg]
    · isplitl [HS0 HS1]
      · isplitl [HS0]; · iexact HS0
        iexists _; isplitr
        swap; · iexact HS1
        ipureintro
        exact fun _ _ => rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro
    rw [runC_pieces]
    exact read_whole_store (ms6 t) _ zero_offsetsC _ _

/-- The pipeline rule's body obligation, at every point. -/
theorem body_obligation (c : Dev nD) : BodyObligation (dats (F := F) m 0 c) (defs₀ (F := F)) Variants.none () Set.univ := fun t => by
  rw [bigSep_W0, bigSep_W0]
  exact sound_body m c t

/-- What the region hands the body is the memory before point 0, -/
theorem hin (c : Dev nD) : Pipeline.ΦA spec0 c ⊢ (dats m 0 c).Φ 0 := by
  rw [show (dats m 0 c).Φ 0 = Pipeline.ΦA spec0 c from rfl]

/-- and the memory after the last point gives it back, the scratch buffers' contents forgotten. -/
theorem hout (c : Dev nD) : (dats m 0 c).Φ (Fin.last cfg0.N) ⊢ Pipeline.ΦA spec0 c := by
  rw [show (dats m 0 c).Φ (Fin.last cfg0.N) = Phi m c cfg0.N from by dsimp only [dats]; simp only [Fin.val_last],
    Phi_pos m c _ (by rw [N_eq]; omega), PhiA_eq]
  iintro ⟨⟨HS0, ⟨%d1, %hd1, HS1⟩⟩, Hg⟩
  isplitl [HS0 HS1]
  · isplitl [HS0]
    · iexists _; iexact HS0
    iexists _; iexact HS1
  iexact Hg

set_option backward.isDefEq.respectTransparency.types false in
/-- At the compiled mesh, for any values, from any memory with zero counters: every weakly fair execution of @main
    terminates, every array of the pipeline ends at what the proof data computes (an input as launched, the result
    at the write-backs of the second phase), and every other unscoped buffer at its contents at the region's entry. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: @main runs, nothing faults, and the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The same run with the result array named: it ends at what the proof data's write-backs leave in it, and the six
    argument arrays end as launched (an array a window stages by the pipeline rule's post for inputs, a bias — which
    only its reshaped copy is staged from — among the buffers that bypass the region). -/
theorem run_result : θ_run defs (onTc (τ := τ) (main (F := F))) ⟨m, fun _ => 0, ρ⟩ (fun r => ∀ c : Dev nD,
      r.2.mem ((c.tc : Thread nD τ).loc main_v0) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1 6,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c)⟩) (run_main m ρ)

end Cert.KernelIdeal.Hand

end
-- ==== Proof.KernelBlocks.lean ====
/-
  The blocks the kernel's windows hand the body, read off the arrays as the region finds them.

  The kernel has 7 windows over a grid of 100 points. Windows 0, 2, 3, 4, 5 (x : [10000, 128], W1 : [128, 128], the
  first bias as a one-row matrix [1, 128], W2 : [128, 128], the second bias as a one-row matrix [1, 128]) have the
  whole array as their one block: the block index is (0, 0) at every point, so the block at any point IS the array.
  Window 1 (adj : [10000, 10000]) has blocks of 200 rows and all 10000 columns, the block index at point t being
  (t mod 50, 0): entry (p, n) of the block at point t is entry (200 * (t mod 50) + p, n) of adj. In general a
  block's entry at coordinate y on an axis sits at (block index) * (block size) + 1 * y of the array on that axis.
  The one-row matrices are the biases reshaped before the region: entry (0, j) of the reshaped bias is entry j of
  the bias, the row-major positions of (0, j) in [1, 128] and of j in [128] being the same number j.
-/
import proofs.«147118_g42614665511374_cont_8to1_b_1813_8_alg».proof.Proof.Gen.KernelIdeal.Frame
import proofs.«147118_g42614665511374_cont_8to1_b_1813_8_alg».proof.Proof.KernelIdeal.Conds
import Idealize.ShloMosaic.Lib.Pipeline.Value
import Idealize.ShloMosaic.Lib.ValueIdx
import Idealize.ShloMosaic.Lib.StableHlo.Run

set_option maxRecDepth 16384

noncomputable section

namespace Cert.Gcn.Blocks

open Cert.KernelIdeal Cert.KernelIdeal.Gen Cert.KernelIdeal.Hand Idealize.ShloMosaic Idealize.ShloMosaic.ValueIdx
open Idealize.ShloMosaic.TcCoe

variable {F : FTy → Type} [FloatOps F] (m : (ℓ : Loc nD τ sig) → Buf (Elt F) ℓ)

/-! ## The windows whose one block is the whole array -/

/-- Window 0's block index is (0, 0) at every point. -/
theorem index0_eq : ∀ t : Fin cfg0.N, (cfg0.win 0).index t = ![0, 0] :=
  (by decide +kernel : ∀ t : Fin grid0.N, win0_0.index t = ![0, 0])

/-- Window 0's block at any point is the whole array: the node features x. -/
theorem blk0_eq (c : Dev nD) (t : Fin cfg0.N) : (iblk m c 0 t : S10000x128.Idx → Elt F .f32) = V m c main_arg0 := by
  funext y
  unfold iblk
  rw [View.read_apply]
  show V m c main_arg0 (((cfg0.win 0).blk t).view.emb y) = V m c main_arg0 y
  refine congrArg _ (funext fun a => Fin.ext ?_)
  have hi := index0_eq t
  match a with
  | ⟨0, _⟩ =>
    show win0_0.index t 0 * 10000 + 1 * (y 0).val = (y 0).val
    have h0 : win0_0.index t 0 = 0 := congrFun hi 0
    omega
  | ⟨1, _⟩ =>
    show win0_0.index t 1 * 128 + 1 * (y 1).val = (y 1).val
    have h1 : win0_0.index t 1 = 0 := congrFun hi 1
    omega

/-- Window 2's block index is (0, 0) at every point. -/
theorem index2_eq : ∀ t : Fin cfg0.N, (cfg0.win 2).index t = ![0, 0] :=
  (by decide +kernel : ∀ t : Fin grid0.N, win0_2.index t = ![0, 0])

/-- Window 2's block at any point is the whole array: the first layer's weights W1. -/
theorem blk2_eq (c : Dev nD) (t : Fin cfg0.N) : (iblk m c 2 t : S128x128.Idx → Elt F .f32) = V m c main_arg2 := by
  funext y
  unfold iblk
  rw [View.read_apply]
  show V m c main_arg2 (((cfg0.win 2).blk t).view.emb y) = V m c main_arg2 y
  refine congrArg _ (funext fun a => Fin.ext ?_)
  have hi := index2_eq t
  match a with
  | ⟨0, _⟩ =>
    show win0_2.index t 0 * 128 + 1 * (y 0).val = (y 0).val
    have h0 : win0_2.index t 0 = 0 := congrFun hi 0
    omega
  | ⟨1, _⟩ =>
    show win0_2.index t 1 * 128 + 1 * (y 1).val = (y 1).val
    have h1 : win0_2.index t 1 = 0 := congrFun hi 1
    omega

/-- Window 3's block index is (0, 0) at every point. -/
theorem index3_eq : ∀ t : Fin cfg0.N, (cfg0.win 3).index t = ![0, 0] :=
  (by decide +kernel : ∀ t : Fin grid0.N, win0_3.index t = ![0, 0])

/-- Window 3's block at any point is the whole array: the first bias as a one-row matrix. -/
theorem blk3_eq (c : Dev nD) (t : Fin cfg0.N) : (iblk m c 3 t : S1x128.Idx → Elt F .f32) = V m c main_call0_v0 := by
  funext y
  unfold iblk
  rw [View.read_apply]
  show V m c main_call0_v0 (((cfg0.win 3).blk t).view.emb y) = V m c main_call0_v0 y
  refine congrArg _ (funext fun a => Fin.ext ?_)
  have hi := index3_eq t
  match a with
  | ⟨0, _⟩ =>
    show win0_3.index t 0 * 1 + 1 * (y 0).val = (y 0).val
    have h0 : win0_3.index t 0 = 0 := congrFun hi 0
    omega
  | ⟨1, _⟩ =>
    show win0_3.index t 1 * 128 + 1 * (y 1).val = (y 1).val
    have h1 : win0_3.index t 1 = 0 := congrFun hi 1
    omega

/-- Window 4's block index is (0, 0) at every point. -/
theorem index4_eq : ∀ t : Fin cfg0.N, (cfg0.win 4).index t = ![0, 0] :=
  (by decide +kernel : ∀ t : Fin grid0.N, win0_4.index t = ![0, 0])

/-- Window 4's block at any point is the whole array: the second layer's weights W2. -/
theorem blk4_eq (c : Dev nD) (t : Fin cfg0.N) : (iblk m c 4 t : S128x128.Idx → Elt F .f32) = V m c main_arg4 := by
  funext y
  unfold iblk
  rw [View.read_apply]
  show V m c main_arg4 (((cfg0.win 4).blk t).view.emb y) = V m c main_arg4 y
  refine congrArg _ (funext fun a => Fin.ext ?_)
  have hi := index4_eq t
  match a with
  | ⟨0, _⟩ =>
    show win0_4.index t 0 * 128 + 1 * (y 0).val = (y 0).val
    have h0 : win0_4.index t 0 = 0 := congrFun hi 0
    omega
  | ⟨1, _⟩ =>
    show win0_4.index t 1 * 128 + 1 * (y 1).val = (y 1).val
    have h1 : win0_4.index t 1 = 0 := congrFun hi 1
    omega

/-- Window 5's block index is (0, 0) at every point. -/
theorem index5_eq : ∀ t : Fin cfg0.N, (cfg0.win 5).index t = ![0, 0] :=
  (by decide +kernel : ∀ t : Fin grid0.N, win0_5.index t = ![0, 0])

/-- Window 5's block at any point is the whole array: the second bias as a one-row matrix. -/
theorem blk5_eq (c : Dev nD) (t : Fin cfg0.N) : (iblk m c 5 t : S1x128.Idx → Elt F .f32) = V m c main_call0_v1 := by
  funext y
  unfold iblk
  rw [View.read_apply]
  show V m c main_call0_v1 (((cfg0.win 5).blk t).view.emb y) = V m c main_call0_v1 y
  refine congrArg _ (funext fun a => Fin.ext ?_)
  have hi := index5_eq t
  match a with
  | ⟨0, _⟩ =>
    show win0_5.index t 0 * 1 + 1 * (y 0).val = (y 0).val
    have h0 : win0_5.index t 0 = 0 := congrFun hi 0
    omega
  | ⟨1, _⟩ =>
    show win0_5.index t 1 * 128 + 1 * (y 1).val = (y 1).val
    have h1 : win0_5.index t 1 = 0 := congrFun hi 1
    omega

/-! ## The adjacency stripes -/

/-- Entry (p, n) of window 1's block at point `t` is entry (200 * (t mod 50) + p, n) of the adjacency matrix. -/
theorem blk1_apply (c : Dev nD) (t : Fin cfg0.N) (p : Fin 200) (n : Fin 10000) :
    (iblk m c 1 t : S200x10000.Idx → Elt F .f32) (ix2 p n)
      = (V m c main_arg1 : S10000x10000.Idx → Elt F .f32) (ix2 ⟨200 * (t.val % 50) + p.val, by have := p.isLt; omega⟩ n) := by
  unfold iblk
  rw [View.read_apply]
  show V m c main_arg1 (((cfg0.win 1).blk t).view.emb (ix2 p n)) = V m c main_arg1 _
  refine congrArg _ (funext fun a => Fin.ext ?_)
  have hi := index1_eq t
  match a with
  | ⟨0, _⟩ =>
    show win0_1.index t 0 * 200 + 1 * p.val = 200 * (t.val % 50) + p.val
    have h0 : win0_1.index t 0 = t.val % 50 := congrFun hi 0
    omega
  | ⟨1, _⟩ =>
    show win0_1.index t 1 * 10000 + 1 * n.val = n.val
    have h1 : win0_1.index t 1 = 0 := congrFun hi 1
    omega

/-! ## The biases as one-row matrices -/

/-- A vector of 128 entries reshaped to one row of 128: entry (0, j) is entry j. -/
theorem oneRow_apply {α : Type} (b : S128.Idx → α) (h : S128.ShapeCasts S1x128) (j : Fin 128) :
    shapeCast S1x128 b h (ix2 (0 : Fin 1) j) = b (ix1 j) :=
  shapeCast_apply b h (ix2 (0 : Fin 1) j) (ix1 j) (by
    rw [Shape.rowMajor_val_one, Shape.rowMajor_val_two]
    show j.val = (0 : Fin 1).val * _ + j.val
    simp)

/-- The first one-row bias is the first bias, reshaped before the region. -/
theorem V_bias1 (c : Dev nD) :
    (V m c main_call0_v0 : S1x128.Idx → Elt F .f32)
      = shapeCast S1x128 (m ((c : Thread nD τ).loc main_arg3) : S128.Idx → Elt F .f32) Facts₀.shapeCasts_S128_S1x128 := by
  dsimp only [Gen.V, Gen.hostOps0]
  after_results
  rfl

/-- The second one-row bias is the second bias, reshaped before the region. -/
theorem V_bias2 (c : Dev nD) :
    (V m c main_call0_v1 : S1x128.Idx → Elt F .f32)
      = shapeCast S1x128 (m ((c : Thread nD τ).loc main_arg5) : S128.Idx → Elt F .f32) Facts₀.shapeCasts_S128_S1x128 := by
  dsimp only [Gen.V, Gen.hostOps0]
  after_results
  rfl

/-- Entry (0, j) of the first one-row bias is entry j of the first bias. -/
theorem bias1_apply (c : Dev nD) (j : Fin 128) :
    (V m c main_call0_v0 : S1x128.Idx → Elt F .f32) (ix2 (0 : Fin 1) j)
      = (m ((c : Thread nD τ).loc main_arg3) : S128.Idx → Elt F .f32) (ix1 j) := by
  rw [V_bias1]
  exact oneRow_apply _ _ j

/-- Entry (0, j) of the second one-row bias is entry j of the second bias. -/
theorem bias2_apply (c : Dev nD) (j : Fin 128) :
    (V m c main_call0_v1 : S1x128.Idx → Elt F .f32) (ix2 (0 : Fin 1) j)
      = (m ((c : Thread nD τ).loc main_arg5) : S128.Idx → Elt F .f32) (ix1 j) := by
  rw [V_bias2]
  exact oneRow_apply _ _ j

end Cert.Gcn.Blocks

end
-- ==== Proof.Spec.lean ====
/-
  The two-layer graph convolution as ONE function of the argument arrays, entry by entry, on the extended reals.
  With x : [10000, 128], adj : [10000, 10000], W1, W2 : [128, 128], b1, b2 : [128]:

    sup1[n, j] = ∑ f, x[n, f] * W1[f, j]                                   (the first layer's support, x · W1)
    hid[k, j]  = max (∑ n, adj[k, n] * sup1[n, j] + b1[j]) 0                (aggregate over neighbours, bias, relu)
    sup2[k, l] = ∑ j, hid[k, j] * W2[j, l]                                 (the second layer's support, hid · W2)
    out[r, l]  = logistic (∑ k, adj[r, k] * sup2[k, l] + b2[l])             (aggregate, bias, sigmoid)

  Every sum is a finite sum in the additive commutative monoid of extended reals, so no tiling of a sum and no
  order of its terms matters; nothing here moves a factor across a sum, so no finiteness of an entry is used.
  The logistic function is 1 / (1 + e^(-z)) with the conventions of the exact division at the infinities: the
  one operation and its spelling through negation, exponential, sum with one and quotient are the same function.
-/
import Idealize.ShloMosaic.PureOps.Ideal
import Idealize.ShloMosaic.PureOps.Ideal.Laws
import Idealize.ShloMosaic.Lib.ValueIdx

noncomputable section

namespace Cert.Gcn

open Idealize.ShloMosaic Idealize.ShloMosaic.ValueIdx

/-- Node features, both supports, the hidden layer and the result: 10000 nodes by 128 channels. -/
abbrev SNF : Shape := ⟨2, ![10000, 128]⟩
/-- The dense adjacency matrix. -/
abbrev SNN : Shape := ⟨2, ![10000, 10000]⟩
/-- A layer's weights. -/
abbrev SFF : Shape := ⟨2, ![128, 128]⟩
/-- A layer's bias. -/
abbrev SF : Shape := ⟨1, ![128]⟩

variable (x : SNF.Idx → EReal) (adj : SNN.Idx → EReal) (W1 : SFF.Idx → EReal) (b1 : SF.Idx → EReal)
  (W2 : SFF.Idx → EReal) (b2 : SF.Idx → EReal)

/-- The first support x · W1 at node `n`, channel `j`. -/
def sup1 (n : Fin 10000) (j : Fin 128) : EReal := ∑ f : Fin 128, x (ix2 n f) * W1 (ix2 f j)

/-- The hidden layer at node `k`, channel `j`: relu of the neighbours' aggregate of the first support plus the bias. -/
def hid (k : Fin 10000) (j : Fin 128) : EReal :=
  max (∑ n : Fin 10000, adj (ix2 k n) * sup1 x W1 n j + b1 (ix1 j)) 0

/-- The second support hid · W2 at node `k`, channel `l`. -/
def sup2 (k : Fin 10000) (l : Fin 128) : EReal := ∑ j : Fin 128, hid x adj W1 b1 k j * W2 (ix2 j l)

/-- The result at node `r`, channel `l`: the sigmoid of the neighbours' aggregate of the second support plus the bias. -/
def outAt (r : Fin 10000) (l : Fin 128) : EReal :=
  Ideal.logistic (∑ k : Fin 10000, adj (ix2 r k) * sup2 x adj W1 b1 W2 k l + b2 (ix1 l))

/-- The result as an array. -/
def out : SNF.Idx → EReal := fun i => outAt x adj W1 b1 W2 b2 ⟨(i 0).val, (i 0).isLt⟩ ⟨(i 1).val, (i 1).isLt⟩

/-- The single-precision word of one denotes the real number one. -/
theorem one_f32 : Ideal.ofBits .f32 0x3F800000#32 = 1 := by simp [Ideal.ofBits, Ideal.ieee, -EReal.coe_mul]; norm_num

/-- 1 / (1 + e^(-z)), spelt with the exact quotient and the word of one, is the logistic function. -/
theorem logistic_spelt (z : EReal) :
    Ideal.div (Ideal.ofBits .f32 0x3F800000#32) (Ideal.ofBits .f32 0x3F800000#32 + Ideal.exp (-z)) = Ideal.logistic z := by
  rw [one_f32]; rfl

end Cert.Gcn

end
-- ==== Proof.PayValue.lean ====
/-
  The three values the kernel's body stores, each read at an index on the extended reals.

  With x : [10000, 128], W1, W2 : [128, 128], a : [200, 10000] (a stripe of 200 rows of the adjacency matrix),
  s1, s2 : [10000, 128] (the supports) and b1r, b2r : [1, 128] (the biases as one-row matrices):

    pay1[n, j] = ∑ f, x[n, f] * W1[f, j]                                       (x · W1 into a zero accumulator)
    pay2[p, l] = ∑ j, max (∑ n, a[p, n] * s1[n, j] + b1r[0, j]) 0 * W2[j, l]    (relu (a · s1 + b1r) · W2)
    pay3[p, l] = logistic (∑ k, a[p, k] * s2[k, l] + b2r[0, l])                (logistic (a · s2 + b2r))

  A matrix product into the zero accumulator is, entry by entry, the plain finite sum over the contracted axis of
  the products of the operands' entries: the left operand is read at (row, k), the right at (k, column). A cast to
  the same shape is the identity; the broadcast of a one-row matrix over 200 rows reads row 0; sum, maximum and
  logistic act entry by entry; the single-precision zero word is the extended real 0.
-/
import proofs.«147118_g42614665511374_cont_8to1_b_1813_8_alg».proof.Proof.Gen.KernelIdeal.Skeleton
import proofs.«147118_g42614665511374_cont_8to1_b_1813_8_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.Gcn.Pay

open Cert.KernelIdeal Cert.KernelIdeal.Gen Idealize.ShloMosaic Idealize.ShloMosaic.ValueIdx

/-! ## The product of a [10000, 128] matrix and a [128, 128] matrix -/

/-- The left operand's row is the result's row. -/
theorem lhs_xw_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- The left operand's column is the contraction index. -/
theorem lhs_xw_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- The right operand's row is the contraction index. -/
theorem rhs_xw_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- The right operand's column is the result's column. -/
theorem rhs_xw_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- A [10000, 128] by [128, 128] product into the zero accumulator, entry by entry: the sum over the 128 contracted positions. -/
theorem matmul_xw_apply (u : FVec Ideal S10000x128 .f32) (w : FVec Ideal S128x128 .f32) (p : Fin 10000) (l : Fin 128) :
    FloatOps.matmul dot_S10000x128_S128x128_S10000x128_1_0_0_1_n_n none u w (constant S10000x128 .f32 0x00000000#32) (ix2 p l)
      = ∑ k : Fin 128, u (ix2 p k) * w (ix2 k l) := by
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 p l) ((ValueIdx.contrEquiv1 dot_S10000x128_S128x128_S10000x128_1_0_0_1_n_n 128 rfl rfl).symm k) = ix2 p k := funext fun a => Fin.ext (by
    match a with
    | ⟨0, _⟩ => exact lhs_xw_0 _ _
    | ⟨1, _⟩ => exact (lhs_xw_1 _ _).trans hk)
  have er : dot_S10000x128_S128x128_S10000x128_1_0_0_1_n_n.rhsIdx (ix2 p l) ((ValueIdx.contrEquiv1 dot_S10000x128_S128x128_S10000x128_1_0_0_1_n_n 128 rfl rfl).symm k) = ix2 k l := funext fun a => Fin.ext (by
    match a with
    | ⟨0, _⟩ => exact (rhs_xw_0 _ _).trans hk
    | ⟨1, _⟩ => exact rhs_xw_1 _ _)
  rw [el, er]

/-- The first stored value: the product x · W1 at node `n`, channel `j`. -/
theorem pay1_apply (x : Vec Ideal S10000x128 .f32) (W1 : Vec Ideal S128x128 .f32) (n : Fin 10000) (j : Fin 128) :
    k0_pay1 (F := Ideal) x W1 (ix2 n j) = ∑ f : Fin 128, x (ix2 n f) * W1 (ix2 f j) := by
  unfold k0_pay1
  simp only [shapeCast_self]
  exact matmul_xw_apply x W1 n j

/-! ## The product of a [200, 10000] stripe and a [10000, 128] matrix -/

/-- The left operand's row is the result's row. -/
theorem lhs_as_0 (i : S200x128.Idx) (q : dot_S200x10000_S10000x128_S200x128_1_0_0_1_n_n.contr.Idx) :
    (dot_S200x10000_S10000x128_S200x128_1_0_0_1_n_n.lhsIdx i q 0).val = (i 0).val := by
  unfold DotDims.lhsIdx
  rw [dif_neg (show ¬(0 : Fin S200x10000.rank) ∈ dot_S200x10000_S10000x128_S200x128_1_0_0_1_n_n.lhsBatch by decide), dif_pos (show (0 : Fin S200x10000.rank) ∈ dot_S200x10000_S10000x128_S200x128_1_0_0_1_n_n.lhsNonContracting by decide)]
  rfl
/-- The left operand's column is the contraction index. -/
theorem lhs_as_1 (i : S200x128.Idx) (q : dot_S200x10000_S10000x128_S200x128_1_0_0_1_n_n.contr.Idx) :
    (dot_S200x10000_S10000x128_S200x128_1_0_0_1_n_n.lhsIdx i q 1).val = (q ⟨0, by decide⟩).val :=
  dot_S200x10000_S10000x128_S200x128_1_0_0_1_n_n.lhsIdx_val_of_single rfl i q
/-- The right operand's row is the contraction index. -/
theorem rhs_as_0 (i : S200x128.Idx) (q : dot_S200x10000_S10000x128_S200x128_1_0_0_1_n_n.contr.Idx) :
    (dot_S200x10000_S10000x128_S200x128_1_0_0_1_n_n.rhsIdx i q 0).val = (q ⟨0, by decide⟩).val :=
  dot_S200x10000_S10000x128_S200x128_1_0_0_1_n_n.rhsIdx_val_of_single rfl i q
/-- The right operand's column is the result's column. -/
theorem rhs_as_1 (i : S200x128.Idx) (q : dot_S200x10000_S10000x128_S200x128_1_0_0_1_n_n.contr.Idx) :
    (dot_S200x10000_S10000x128_S200x128_1_0_0_1_n_n.rhsIdx i q 1).val = (i 1).val := by
  unfold DotDims.rhsIdx
  rw [dif_neg (show ¬(1 : Fin S10000x128.rank) ∈ dot_S200x10000_S10000x128_S200x128_1_0_0_1_n_n.rhsBatch by decide), dif_pos (show (1 : Fin S10000x128.rank) ∈ dot_S200x10000_S10000x128_S200x128_1_0_0_1_n_n.rhsNonContracting by decide)]
  rfl

/-- A [200, 10000] by [10000, 128] product into the zero accumulator, entry by entry: the sum over the 10000 contracted positions. -/
theorem matmul_as_apply (u : FVec Ideal S200x10000 .f32) (w : FVec Ideal S10000x128 .f32) (p : Fin 200) (l : Fin 128) :
    FloatOps.matmul dot_S200x10000_S10000x128_S200x128_1_0_0_1_n_n none u w (constant S200x128 .f32 0x00000000#32) (ix2 p l)
      = ∑ k : Fin 10000, u (ix2 p k) * w (ix2 k l) := by
  rw [Ideal.matmul_constant_zero_apply, ← Equiv.sum_comp (ValueIdx.contrEquiv1 dot_S200x10000_S10000x128_S200x128_1_0_0_1_n_n 10000 rfl rfl).symm]
  refine Finset.sum_congr rfl fun k _ => ?_
  have hk := ValueIdx.contrEquiv1_symm_val dot_S200x10000_S10000x128_S200x128_1_0_0_1_n_n 10000 rfl rfl k
  have el : dot_S200x10000_S10000x128_S200x128_1_0_0_1_n_n.lhsIdx (ix2 p l) ((ValueIdx.contrEquiv1 dot_S200x10000_S10000x128_S200x128_1_0_0_1_n_n 10000 rfl rfl).symm k) = ix2 p k := funext fun a => Fin.ext (by
    match a with
    | ⟨0, _⟩ => exact lhs_as_0 _ _
    | ⟨1, _⟩ => exact (lhs_as_1 _ _).trans hk)
  have er : dot_S200x10000_S10000x128_S200x128_1_0_0_1_n_n.rhsIdx (ix2 p l) ((ValueIdx.contrEquiv1 dot_S200x10000_S10000x128_S200x128_1_0_0_1_n_n 10000 rfl rfl).symm k) = ix2 k l := funext fun a => Fin.ext (by
    match a with
    | ⟨0, _⟩ => exact (rhs_as_0 _ _).trans hk
    | ⟨1, _⟩ => exact rhs_as_1 _ _)
  rw [el, er]

/-! ## The product of a [200, 128] matrix and a [128, 128] matrix -/

/-- The left operand's row is the result's row. -/
theorem lhs_hw_0 (i : S200x128.Idx) (q : dot_S200x128_S128x128_S200x128_1_0_0_1_n_n.contr.Idx) :
    (dot_S200x128_S128x128_S200x128_1_0_0_1_n_n.lhsIdx i q 0).val = (i 0).val := by
  unfold DotDims.lhsIdx
  rw [dif_neg (show ¬(0 : Fin S200x128.rank) ∈ dot_S200x128_S128x128_S200x128_1_0_0_1_n_n.lhsBatch by decide), dif_pos (show (0 : Fin S200x128.rank) ∈ dot_S200x128_S128x128_S200x128_1_0_0_1_n_n.lhsNonContracting by decide)]
  rfl
/-- The left operand's column is the contraction index. -/
theorem lhs_hw_1 (i : S200x128.Idx) (q : dot_S200x128_S128x128_S200x128_1_0_0_1_n_n.contr.Idx) :
    (dot_S200x128_S128x128_S200x128_1_0_0_1_n_n.lhsIdx i q 1).val = (q ⟨0, by decide⟩).val :=
  dot_S200x128_S128x128_S200x128_1_0_0_1_n_n.lhsIdx_val_of_single rfl i q
/-- The right operand's row is the contraction index. -/
theorem rhs_hw_0 (i : S200x128.Idx) (q : dot_S200x128_S128x128_S200x128_1_0_0_1_n_n.contr.Idx) :
    (dot_S200x128_S128x128_S200x128_1_0_0_1_n_n.rhsIdx i q 0).val = (q ⟨0, by decide⟩).val :=
  dot_S200x128_S128x128_S200x128_1_0_0_1_n_n.rhsIdx_val_of_single rfl i q
/-- The right operand's column is the result's column. -/
theorem rhs_hw_1 (i : S200x128.Idx) (q : dot_S200x128_S128x128_S200x128_1_0_0_1_n_n.contr.Idx) :
    (dot_S200x128_S128x128_S200x128_1_0_0_1_n_n.rhsIdx i q 1).val = (i 1).val := by
  unfold DotDims.rhsIdx
  rw [dif_neg (show ¬(1 : Fin S128x128.rank) ∈ dot_S200x128_S128x128_S200x128_1_0_0_1_n_n.rhsBatch by decide), dif_pos (show (1 : Fin S128x128.rank) ∈ dot_S200x128_S128x128_S200x128_1_0_0_1_n_n.rhsNonContracting by decide)]
  rfl

/-- A [200, 128] by [128, 128] product into the zero accumulator, entry by entry: the sum over the 128 contracted positions. -/
theorem matmul_hw_apply (u : FVec Ideal S200x128 .f32) (w : FVec Ideal S128x128 .f32) (p : Fin 200) (l : Fin 128) :
    FloatOps.matmul dot_S200x128_S128x128_S200x128_1_0_0_1_n_n none u w (constant S200x128 .f32 0x00000000#32) (ix2 p l)
      = ∑ k : Fin 128, u (ix2 p k) * w (ix2 k l) := by
  rw [Ideal.matmul_constant_zero_apply, ← Equiv.sum_comp (ValueIdx.contrEquiv1 dot_S200x128_S128x128_S200x128_1_0_0_1_n_n 128 rfl rfl).symm]
  refine Finset.sum_congr rfl fun k _ => ?_
  have hk := ValueIdx.contrEquiv1_symm_val dot_S200x128_S128x128_S200x128_1_0_0_1_n_n 128 rfl rfl k
  have el : dot_S200x128_S128x128_S200x128_1_0_0_1_n_n.lhsIdx (ix2 p l) ((ValueIdx.contrEquiv1 dot_S200x128_S128x128_S200x128_1_0_0_1_n_n 128 rfl rfl).symm k) = ix2 p k := funext fun a => Fin.ext (by
    match a with
    | ⟨0, _⟩ => exact lhs_hw_0 _ _
    | ⟨1, _⟩ => exact (lhs_hw_1 _ _).trans hk)
  have er : dot_S200x128_S128x128_S200x128_1_0_0_1_n_n.rhsIdx (ix2 p l) ((ValueIdx.contrEquiv1 dot_S200x128_S128x128_S200x128_1_0_0_1_n_n 128 rfl rfl).symm k) = ix2 k l := funext fun a => Fin.ext (by
    match a with
    | ⟨0, _⟩ => exact (rhs_hw_0 _ _).trans hk
    | ⟨1, _⟩ => exact rhs_hw_1 _ _)
  rw [el, er]

/-! ## The bias row over the stripe, and the two stored values of a stripe -/

/-- A one-row matrix broadcast over 200 rows reads its row 0 at every row. -/
theorem bias_row_apply (b : FVec Ideal S1x128 .f32) (p : Fin 200) (l : Fin 128) :
    broadcastTo S200x128 b Facts₀.broadcasts_S1x128_S200x128 (ix2 p l) = b (ix2 (0 : Fin 1) l) :=
  broadcastTo_apply b _ (ix2 p l) (ix2 (0 : Fin 1) l) (fun a => by
    match a with
    | ⟨0, _⟩ => rfl
    | ⟨1, _⟩ => rfl)

/-- The aggregate a · s + b at row `p` of the stripe, channel `l`: the sum over the 10000 nodes plus the bias. -/
theorem aggregate_apply (a : FVec Ideal S200x10000 .f32) (s : FVec Ideal S10000x128 .f32) (b : FVec Ideal S1x128 .f32)
    (p : Fin 200) (l : Fin 128) :
    addf (FloatOps.matmul dot_S200x10000_S10000x128_S200x128_1_0_0_1_n_n none a s (constant S200x128 .f32 0x00000000#32))
        (broadcastTo S200x128 b Facts₀.broadcasts_S1x128_S200x128) (ix2 p l)
      = ∑ k : Fin 10000, a (ix2 p k) * s (ix2 k l) + b (ix2 (0 : Fin 1) l) := by
  rw [addf_apply, matmul_as_apply, bias_row_apply]

/-- The second stored value: relu (a · s1 + b1r) · W2 at row `p` of the stripe, channel `l`. -/
theorem pay2_apply (a : Vec Ideal S200x10000 .f32) (s1 : Vec Ideal S10000x128 .f32) (b1r : Vec Ideal S1x128 .f32) (W2 : Vec Ideal S128x128 .f32)
    (p : Fin 200) (l : Fin 128) :
    k0_pay2 (F := Ideal) a s1 b1r W2 (ix2 p l)
      = ∑ j : Fin 128, max (∑ n : Fin 10000, a (ix2 p n) * s1 (ix2 n j) + b1r (ix2 (0 : Fin 1) j)) 0 * W2 (ix2 j l) := by
  unfold k0_pay2
  simp only [shapeCast_self]
  refine (matmul_hw_apply _ W2 p l).trans ?_
  refine Finset.sum_congr rfl fun j _ => ?_
  rw [maximumf_apply, aggregate_apply, broadcast_apply]
  show max _ (Ideal.ofBits .f32 0x00000000#32) * _ = _
  rw [Ideal.ofBits_zero_f32]

/-- The third stored value: logistic (a · s2 + b2r) at row `p` of the stripe, channel `l`. -/
theorem pay3_apply (a : Vec Ideal S200x10000 .f32) (s2 : Vec Ideal S10000x128 .f32) (b2r : Vec Ideal S1x128 .f32) (p : Fin 200) (l : Fin 128) :
    k0_pay3 (F := Ideal) a s2 b2r (ix2 p l)
      = Ideal.logistic (∑ k : Fin 10000, a (ix2 p k) * s2 (ix2 k l) + b2r (ix2 (0 : Fin 1) l)) := by
  unfold k0_pay3
  simp only [shapeCast_self]
  show Ideal.logistic _ = _
  rw [aggregate_apply]

end Cert.Gcn.Pay

end
-- ==== Proof.KernelValue.lean ====
/-
  The value of the fused two-layer graph convolution kernel: the result array ends holding the specification.

  On core c write x, adj, W1, b1, W2, b2 for the six argument arrays as launched. Then, entry by entry on the
  extended reals:
    (1) the first support the kernel computes at point 0 is the specification's:  S1[n, j] = sup1[n, j] = ∑ f, x[n, f] * W1[f, j],
        the blocks of x and W1 being the whole arrays;
    (2) the stripe a first-phase point t < 50 computes is rows 200 t … 200 t + 199 of the specification's second support:
        stripe_t[p, l] = ∑ j, max (∑ n, adj[200 t + p, n] * sup1[n, j] + b1[j]) 0 * W2[j, l] = sup2[200 t + p, l],
        the adjacency block at point t being rows 200 (t mod 50) … of adj and t mod 50 = t;
    (3) so the second support, row r being row r mod 200 of stripe r / 200, is sup2: 200 (r / 200) + r mod 200 = r;
    (4) the output block a second-phase point t ≥ 50 computes is rows 200 (t - 50) … of the specification's result:
        outBlk_t[p, l] = logistic (∑ k, adj[200 (t - 50) + p, k] * sup2[k, l] + b2[l]) = out[200 (t - 50) + p, l],
        as t mod 50 = t - 50 for 50 ≤ t < 100;
    (5) the output window writes its block back exactly at the points t ≥ 50, at block index (t - 50, 0): what is
        written back there is that block of the specification's result, and the fifty blocks cover all 10000 rows
        (row r lies in the block of point 50 + r / 200), so the array ends holding the specification's result.
  Every sum is a finite sum of extended reals and is only re-indexed term by term; no factor moves across a sum.
-/
import proofs.«147118_g42614665511374_cont_8to1_b_1813_8_alg».proof.Proof.KernelIdeal.Data
import proofs.«147118_g42614665511374_cont_8to1_b_1813_8_alg».proof.Proof.KernelBlocks
import proofs.«147118_g42614665511374_cont_8to1_b_1813_8_alg».proof.Proof.PayValue
import proofs.«147118_g42614665511374_cont_8to1_b_1813_8_alg».proof.Proof.Spec
import Idealize.ShloMosaic.Lib.Pipeline.Value
import Idealize.ShloMosaic.Lib.ValueIdx

set_option maxRecDepth 16384

noncomputable section

namespace Cert.Gcn.KVal

open Cert.KernelIdeal Cert.KernelIdeal.Gen Cert.KernelIdeal.Hand Cert.Gcn.Blocks Cert.Gcn.Pay
open Idealize.ShloMosaic Idealize.ShloMosaic.TcCoe Idealize.ShloMosaic.ValueIdx Idealize.SL.Sem

variable (m : (ℓ : Loc nD τ sig) → Buf (Elt Ideal) ℓ)

/-! ## The arguments as launched, and the specification at them -/

/-- The node features on core `c`. -/
abbrev aX (c : Dev nD) : S10000x128.Idx → EReal := m ((c : Thread nD τ).loc main_arg0)
/-- The adjacency matrix. -/
abbrev aAdj (c : Dev nD) : S10000x10000.Idx → EReal := m ((c : Thread nD τ).loc main_arg1)
/-- The first layer's weights. -/
abbrev aW1 (c : Dev nD) : S128x128.Idx → EReal := m ((c : Thread nD τ).loc main_arg2)
/-- The first layer's bias. -/
abbrev aB1 (c : Dev nD) : S128.Idx → EReal := m ((c : Thread nD τ).loc main_arg3)
/-- The second layer's weights. -/
abbrev aW2 (c : Dev nD) : S128x128.Idx → EReal := m ((c : Thread nD τ).loc main_arg4)
/-- The second layer's bias. -/
abbrev aB2 (c : Dev nD) : S128.Idx → EReal := m ((c : Thread nD τ).loc main_arg5)

/-- The specification at the arguments as launched on core `c`. -/
abbrev G (c : Dev nD) : S10000x128.Idx → EReal :=
  Cert.Gcn.out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-! ## (1) The first support -/

/-- The first support the kernel computes is the specification's. -/
theorem S1_apply (c : Dev nD) (n : Fin 10000) (j : Fin 128) :
    S1 m c (ix2 n j) = Cert.Gcn.sup1 (aX m c) (aW1 m c) n j := by
  unfold S1
  refine (pay1_apply _ _ n j).trans ?_
  unfold Cert.Gcn.sup1
  refine Finset.sum_congr rfl fun f _ => ?_
  rw [blk0_eq, blk2_eq, V_main_arg0, V_main_arg2]

/-! ## (2) A stripe of the second support -/

/-- Entry (p, n) of the adjacency block at point `t` is entry (r, n) of the adjacency matrix, r = 200 (t mod 50) + p. -/
theorem adjBlk_apply (c : Dev nD) (t : Fin cfg0.N) (p : Fin 200) (n : Fin 10000) (r : Fin 10000)
    (hr : r.val = 200 * (t.val % 50) + p.val) :
    (iblk m c 1 t : S200x10000.Idx → EReal) (ix2 p n) = aAdj m c (ix2 r n) := by
  rw [blk1_apply, V_main_arg1]
  have e : (⟨200 * (t.val % 50) + p.val, by have := p.isLt; omega⟩ : Fin 10000) = r := Fin.ext hr.symm
  rw [e]

/-- The stripe a first-phase point computes is its 200 rows of the specification's second support. -/
theorem stripe_apply (c : Dev nD) (t : Fin cfg0.N) (ht : t.val < 50) (p : Fin 200) (l : Fin 128) :
    stripe m c t (ix2 p l)
      = Cert.Gcn.sup2 (aX m c) (aAdj m c) (aW1 m c) (aB1 m c) (aW2 m c) ⟨200 * t.val + p.val, by have := p.isLt; omega⟩ l := by
  unfold stripe
  refine (pay2_apply _ _ _ _ p l).trans ?_
  unfold Cert.Gcn.sup2 Cert.Gcn.hid
  have ea : ∀ n : Fin 10000, (iblk m c 1 t : S200x10000.Idx → EReal) (ix2 p n)
      = aAdj m c (ix2 (⟨200 * t.val + p.val, by have := p.isLt; omega⟩ : Fin 10000) n) :=
    fun n => adjBlk_apply m c t p n _ (by show 200 * t.val + p.val = 200 * (t.val % 50) + p.val; omega)
  have e3 : ∀ j : Fin 128, (iblk m c 3 t : S1x128.Idx → EReal) (ix2 (0 : Fin 1) j) = aB1 m c (ix1 j) := fun j => by
    rw [blk3_eq]; exact bias1_apply m c j
  have e4 : ∀ j : Fin 128, (iblk m c 4 t : S128x128.Idx → EReal) (ix2 j l) = aW2 m c (ix2 j l) := fun j => by
    rw [blk4_eq, V_main_arg4]
  refine Finset.sum_congr rfl fun j _ => ?_
  rw [e3, e4]
  refine congrArg (fun z => max (z + aB1 m c (ix1 j)) 0 * aW2 m c (ix2 j l)) ?_
  refine Finset.sum_congr rfl fun n _ => ?_
  rw [ea, S1_apply]

/-! ## (3) The second support -/

/-- The second support the kernel assembles from its fifty stripes is the specification's. -/
theorem S2_apply (c : Dev nD) (k : Fin 10000) (l : Fin 128) :
    S2 m c (ix2 k l) = Cert.Gcn.sup2 (aX m c) (aAdj m c) (aW1 m c) (aB1 m c) (aW2 m c) k l := by
  unfold S2
  have hk := k.isLt
  refine (stripe_apply m c ⟨k.val / 200, by rw [N_eq]; omega⟩ (by show k.val / 200 < 50; omega)
    ⟨k.val % 200, Nat.mod_lt _ (by norm_num)⟩ l).trans ?_
  have e : (⟨200 * (k.val / 200) + k.val % 200, by omega⟩ : Fin 10000) = k := Fin.ext (Nat.div_add_mod k.val 200)
  rw [e]

/-! ## (4) An output block -/

/-- The output block a second-phase point computes is its 200 rows of the specification's result. -/
theorem outBlk_apply (c : Dev nD) (t : Fin cfg0.N) (ht : 50 ≤ t.val) (p : Fin 200) (l : Fin 128) :
    outBlk m c t (ix2 p l)
      = Cert.Gcn.outAt (aX m c) (aAdj m c) (aW1 m c) (aB1 m c) (aW2 m c) (aB2 m c)
          ⟨200 * (t.val - 50) + p.val, by have := p.isLt; have := lt_of_lt_of_eq t.isLt N_eq; omega⟩ l := by
  have hN : t.val < 100 := lt_of_lt_of_eq t.isLt N_eq
  unfold outBlk
  refine (pay3_apply _ _ _ p l).trans ?_
  unfold Cert.Gcn.outAt
  have ea : ∀ n : Fin 10000, (iblk m c 1 t : S200x10000.Idx → EReal) (ix2 p n)
      = aAdj m c (ix2 (⟨200 * (t.val - 50) + p.val, by have := p.isLt; omega⟩ : Fin 10000) n) :=
    fun n => adjBlk_apply m c t p n _ (by show 200 * (t.val - 50) + p.val = 200 * (t.val % 50) + p.val; omega)
  have e5 : (iblk m c 5 t : S1x128.Idx → EReal) (ix2 (0 : Fin 1) l) = aB2 m c (ix1 l) := by
    rw [blk5_eq]; exact bias2_apply m c l
  rw [e5]
  refine congrArg (fun z => Ideal.logistic (z + aB2 m c (ix1 l))) ?_
  refine Finset.sum_congr rfl fun k _ => ?_
  rw [ea, S2_apply]

/-! ## (5) The blocks written back, and the array they fill -/

/-- The output block at point `t ≥ 50`, at a block index `y`, is the specification at the array index `i` that `y` sits at. -/
theorem outBlk_at (c : Dev nD) (t : Fin cfg0.N) (ht : 50 ≤ t.val) (y : S200x128.Idx) (i : S10000x128.Idx)
    (h0 : (i 0).val = 200 * (t.val - 50) + (y 0).val) (h1 : (i 1).val = (y 1).val) :
    outBlk m c t y = G m c i := by
  have hy : y = ix2 (⟨(y 0).val, idx2_lt0 y⟩ : Fin 200) (⟨(y 1).val, idx2_lt1 y⟩ : Fin 128) := eq_ix2 y
  refine (congrArg (outBlk m c t) hy).trans ((outBlk_apply m c t ht _ _).trans ?_)
  show Cert.Gcn.outAt (aX m c) (aAdj m c) (aW1 m c) (aB1 m c) (aW2 m c) (aB2 m c) _ _
    = Cert.Gcn.outAt (aX m c) (aAdj m c) (aW1 m c) (aB1 m c) (aW2 m c) (aB2 m c) ⟨(i 0).val, (i 0).isLt⟩ ⟨(i 1).val, (i 1).isLt⟩
  have ea : (⟨200 * (t.val - 50) + (y 0).val, by have := idx2_lt0 y; have := lt_of_lt_of_eq t.isLt N_eq; omega⟩ : Fin 10000)
      = ⟨(i 0).val, idx2_lt0 i⟩ := Fin.ext h0.symm
  have eb : (⟨(y 1).val, idx2_lt1 y⟩ : Fin 128) = ⟨(i 1).val, idx2_lt1 i⟩ := Fin.ext h1.symm
  exact congrArg₂ (Cert.Gcn.outAt (aX m c) (aAdj m c) (aW1 m c) (aB1 m c) (aW2 m c) (aB2 m c)) ea eb

/-- WHAT A SECOND-PHASE POINT WRITES BACK is its block of the specification's result. -/
theorem flushed6_eq (c : Dev nD) (t : Fin cfg0.N) (hf : (cfg0.win 6).flush t = true) :
    (dats (F := Ideal) m 0 c).flushed 6 t = ((cfg0.win 6).blk t).view.read (Elt Ideal) (G m c) := by
  have ht : 50 ≤ t.val := (flush6_iff t).mp hf
  have hi := index6_eq t ht
  show (cfg0.win 6).cut (grid0.coords t) ((dats (F := Ideal) m 0 c).after 6 t) = _
  rw [after6]
  refine funext fun (y : S200x128.Idx) => ?_
  show outBlk m c t y = G m c (((cfg0.win 6).blk t).view.emb y)
  refine outBlk_at m c t ht y _ ?_ ?_
  · show win0_6.index t 0 * 200 + 1 * (y 0).val = 200 * (t.val - 50) + (y 0).val
    have h0 : win0_6.index t 0 = t.val - 50 := congrFun hi 0
    omega
  · show win0_6.index t 1 * 128 + 1 * (y 1).val = (y 1).val
    have h1 : win0_6.index t 1 = 0 := congrFun hi 1
    omega

/-- An index of the result array is in point `t`'s block iff each coordinate is in the block's range on its axis. -/
theorem mem_blk6 (t : Fin cfg0.N) (i : S10000x128.Idx) :
    i ∈ ((cfg0.win 6).blk t).view.set ↔ ∀ a : Fin 2, win0_6.index t a * S200x128.size a ≤ (i a).val ∧ (i a).val < win0_6.index t a * S200x128.size a + S200x128.size a := by
  show i ∈ ((View.whole main_v0).slice (win0_6.rect t)).set ↔ _
  rw [View.set_slice_whole, Rect.mem_set_unit]
  exact Iff.rfl

/-- Every row of the result lies in the block some second-phase point writes back: row r in that of point 50 + r / 200. -/
theorem cover6 (i : S10000x128.Idx) :
    ∃ t : Fin cfg0.N, (cfg0.win 6).flush t = true ∧ i ∈ ((cfg0.win 6).blk t).view.set := by
  have hi0 : (i 0).val < 10000 := idx2_lt0 i
  have hi1 : (i 1).val < 128 := idx2_lt1 i
  have ht : 50 ≤ (⟨50 + (i 0).val / 200, by rw [N_eq]; omega⟩ : Fin cfg0.N).val := by show 50 ≤ 50 + (i 0).val / 200; omega
  refine ⟨⟨50 + (i 0).val / 200, by rw [N_eq]; omega⟩, (flush6_iff _).mpr ht, ?_⟩
  have hi := index6_eq _ ht
  rw [mem_blk6]
  intro a
  match a with
  | ⟨0, _⟩ =>
    show win0_6.index _ 0 * 200 ≤ (i 0).val ∧ (i 0).val < win0_6.index _ 0 * 200 + 200
    have h0 : win0_6.index (⟨50 + (i 0).val / 200, by rw [N_eq]; omega⟩ : Fin cfg0.N) 0 = 50 + (i 0).val / 200 - 50 := congrFun hi 0
    omega
  | ⟨1, _⟩ =>
    show win0_6.index _ 1 * 128 ≤ (i 1).val ∧ (i 1).val < win0_6.index _ 1 * 128 + 128
    have h1 : win0_6.index (⟨50 + (i 0).val / 200, by rw [N_eq]; omega⟩ : Fin cfg0.N) 1 = 0 := congrFun hi 1
    omega

/-- THE RESULT ARRAY after the run holds the specification at the arguments as launched. -/
theorem final6 (c : Dev nD) : (dats (F := Ideal) m 0 c).arrAt 6 cfg0.N = G m c :=
  (dats (F := Ideal) m 0 c).arrAt_eq_of_cover 6 (G m c) (flushed6_eq m c) cover6

end Cert.Gcn.KVal

end
-- ==== Proof.RefValue.lean ====
/-
  The reference's result, read one host operation at a time, is the specification's function of the argument arrays.
-/
import proofs.«147118_g42614665511374_cont_8to1_b_1813_8_alg».proof.Proof.Gen.ReferenceIdeal.Run
import proofs.«147118_g42614665511374_cont_8to1_b_1813_8_alg».proof.Proof.Gen.ReferenceIdeal.Read
import proofs.«147118_g42614665511374_cont_8to1_b_1813_8_alg».proof.Proof.Spec

noncomputable section

namespace Cert.Gcn.Ref

open Idealize.ShloMosaic
open Cert.ReferenceIdeal Cert.ReferenceIdeal.Read Idealize.ShloMosaic.ValueIdx

/-- The node of a node-by-channel index. -/
abbrev row (i : S10000x128.Idx) : Fin 10000 := ⟨(i 0).val, (i 0).isLt⟩
/-- The channel of a node-by-channel index. -/
abbrev col (i : S10000x128.Idx) : Fin 128 := ⟨(i 1).val, (i 1).isLt⟩

/-! ## The operand indices of the four products and of the two bias rows, by coordinates -/

/-- x · W1 reads x at (node, f). -/
theorem lidx_v0_eq (i : S10000x128.Idx) (k : Fin 128) : lidx_main_v0 i k = ix2 (row i) k :=
  funext fun a => Fin.ext (by match a with | ⟨0, _⟩ => rfl | ⟨1, _⟩ => rfl)
/-- x · W1 reads W1 at (f, channel). -/
theorem ridx_v0_eq (i : S10000x128.Idx) (k : Fin 128) : ridx_main_v0 i k = ix2 k (col i) :=
  funext fun a => Fin.ext (by match a with | ⟨0, _⟩ => rfl | ⟨1, _⟩ => rfl)
/-- adj · support1 reads adj at (node, n). -/
theorem lidx_v1_eq (i : S10000x128.Idx) (k : Fin 10000) : lidx_main_v1 i k = ix2 (row i) k :=
  funext fun a => Fin.ext (by match a with | ⟨0, _⟩ => rfl | ⟨1, _⟩ => rfl)
/-- hid · W2 reads W2 at (j, channel). -/
theorem ridx_v6_eq (i : S10000x128.Idx) (k : Fin 128) : ridx_main_v6 i k = ix2 k (col i) :=
  funext fun a => Fin.ext (by match a with | ⟨0, _⟩ => rfl | ⟨1, _⟩ => rfl)
/-- adj · support2 reads adj at (node, k). -/
theorem lidx_v7_eq (i : S10000x128.Idx) (k : Fin 10000) : lidx_main_v7 i k = ix2 (row i) k :=
  funext fun a => Fin.ext (by match a with | ⟨0, _⟩ => rfl | ⟨1, _⟩ => rfl)
/-- The first bias, broadcast along the nodes, is read at the channel. -/
theorem bias1_idx_eq (i : S10000x128.Idx) : idx_main_v2 (idx_main_v3 i) = ix1 (col i) :=
  funext fun a => Fin.ext (by match a with | ⟨0, _⟩ => rfl)
/-- The second bias, broadcast along the nodes, is read at the channel. -/
theorem bias2_idx_eq (i : S10000x128.Idx) : idx_main_v8 (idx_main_v9 i) = ix1 (col i) :=
  funext fun a => Fin.ext (by match a with | ⟨0, _⟩ => rfl)

variable (x0 : (⟨S10000x128, .f32⟩ : BufTy).Contents (Elt Ideal)) (x1 : (⟨S10000x10000, .f32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))

/-! ## One layer at a time -/

/-- The first product is the first support. -/
theorem support1_at (i : S10000x128.Idx) :
    val_main_v0 (F := Ideal) x0 x2 i = Cert.Gcn.sup1 x0 x2 (row i) (col i) := by
  rw [val_main_v0_apply]
  unfold Cert.Gcn.sup1
  refine Finset.sum_congr rfl fun k _ => ?_
  rw [lidx_v0_eq, ridx_v0_eq]

/-- The aggregate of the first support plus the bias, under the maximum with the zero word, is the hidden layer. -/
theorem hidden_at (i : S10000x128.Idx) :
    val_main_v5 (F := Ideal) x0 x1 x2 x3 i = Cert.Gcn.hid x0 x1 x2 x3 (row i) (col i) := by
  rw [val_main_v5_apply, val_main_v4_apply, val_main_v1_apply, val_main_v3_apply, val_main_v2_apply,
    val_main_call0_v0_apply, val_main_call0_cst_apply, bias1_idx_eq]
  simp only [Ideal.maximumf_def, Ideal.addf_def, Ideal.ofBits_def, Ideal.ofBits_zero_f32]
  unfold Cert.Gcn.hid
  have hs : ∀ n : Fin 10000, x1 (lidx_main_v1 i n) * val_main_v0 (F := Ideal) x0 x2 (ridx_main_v1 i n)
      = x1 (ix2 (row i) n) * Cert.Gcn.sup1 x0 x2 n (col i) := fun n => by
    rw [support1_at, lidx_v1_eq]
  rw [Finset.sum_congr rfl fun n _ => hs n]

/-- The product of the hidden layer with the second weights is the second support. -/
theorem support2_at (i : S10000x128.Idx) :
    val_main_v6 (F := Ideal) x0 x1 x2 x3 x4 i = Cert.Gcn.sup2 x0 x1 x2 x3 x4 (row i) (col i) := by
  rw [val_main_v6_apply]
  unfold Cert.Gcn.sup2
  refine Finset.sum_congr rfl fun k _ => ?_
  rw [hidden_at, ridx_v6_eq]

/-- The reference's result is the specification's function of the six argument arrays. -/
theorem result_eq
    (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v16 (F := Ideal) x0 x1 x2 x3 x4 x5 = Cert.Gcn.out x0 x1 x2 x3 x4 x5 := by
  funext i
  rw [val_main_v16_apply, val_main_v15_apply, val_main_cst_0_apply, val_main_v14_apply, val_main_v13_apply,
    val_main_cst_apply, val_main_v12_apply, val_main_v11_apply, val_main_v10_apply, val_main_v7_apply,
    val_main_v9_apply, val_main_v8_apply, bias2_idx_eq]
  simp only [Ideal.hostDivf_def, Ideal.addf_def, Ideal.ofBits_def, Ideal.hostUnary_exp_def, Ideal.hostNegf_def,
    Ideal.negf_def]
  have hs : ∀ k : Fin 10000, x1 (lidx_main_v7 i k) * val_main_v6 (F := Ideal) x0 x1 x2 x3 x4 (ridx_main_v7 i k)
      = x1 (ix2 (row i) k) * Cert.Gcn.sup2 x0 x1 x2 x3 x4 k (col i) := fun k => by
    rw [support2_at, lidx_v7_eq]
  rw [Finset.sum_congr rfl fun k _ => hs k, Cert.Gcn.logistic_spelt]
  rfl

end Cert.Gcn.Ref

end
-- ==== Proof.lean ====
/-
  The certificate of the fused two-layer graph convolution against its plain reference.

  Both programs compute, entry by entry on the extended reals,
      out = logistic (adj · (relu (adj · (x · W1) + b1) · W2) + b2)
  (the specification module states it as nested finite sums). The kernel runs a grid of two phases of fifty row
  stripes: the first phase fills a scratch buffer with x · W1 once and then, stripe by stripe, a second scratch
  buffer with relu (adj · (x · W1) + b1) · W2; the second phase streams the adjacency again and writes
  logistic (adj · that + b2) stripe by stripe into the result. The reference does the same with four matrix
  products over the whole arrays, the sigmoid spelt as 1 / (1 + exp (-z)).
    * The three frames: each kernel program's by the pipeline rule with a tracked invariant over the two scratch
      buffers (one text for both float instances); the reference's is its run with the result dropped.
    * The idealization rewrote no operation, so there is nothing to preserve.
    * Equal results: the kernel's result array is the second phase's write-backs, each the specification's stripe,
      and they cover the array; the reference's last stage read at an index is the specification's entry. A matrix
      product into a zero accumulator and a host contraction are the same finite sum, the tiling of the rows does not
      touch any sum, and the logistic function is its spelling — no law that needs finite entries is used.
-/
import proofs.«147118_g42614665511374_cont_8to1_b_1813_8_alg».proof.Defs
import proofs.«147118_g42614665511374_cont_8to1_b_1813_8_alg».proof.Proof.Gen.Pre_finite_inputs
import proofs.«147118_g42614665511374_cont_8to1_b_1813_8_alg».proof.Proof.Kernel.Body
import proofs.«147118_g42614665511374_cont_8to1_b_1813_8_alg».proof.Proof.KernelIdeal.Body
import proofs.«147118_g42614665511374_cont_8to1_b_1813_8_alg».proof.Proof.KernelValue
import proofs.«147118_g42614665511374_cont_8to1_b_1813_8_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Hand.frame m ρ

theorem frame_kernelIdeal : Cert.frame_KernelIdeal := fun m ρ _ => Cert.KernelIdeal.Hand.frame m ρ

theorem frame_reference : Cert.frame_ReferenceIdeal := fun m ρ _ =>
  (θ_run Cert.ReferenceIdeal.defs _ _).mono (fun _ h c => (h c).2) (Cert.ReferenceIdeal.Value.run (F := Ideal) m ρ)

/-- Run from memories that agree on the six arguments, both idealized programs end with the specification of those
    arguments in their result array. -/
theorem algebraic : Cert.algebraic_KernelIdeal_ReferenceIdeal := by
  intro m ρ m' ρ' _ hagree
  refine ⟨fun c => Cert.Gcn.KVal.G m c, ?_, ?_⟩
  · exact (θ_run Cert.KernelIdeal.defs _ _).mono
      (fun _ h c => ⟨(h c).1.trans (Cert.Gcn.KVal.final6 m c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v16_eq, Cert.Gcn.Ref.result_eq,
      (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
